-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S8 : Shape := ⟨1, ![8]⟩
abbrev S4096x8 : Shape := ⟨2, ![4096, 8]⟩
abbrev S1024x4096 : Shape := ⟨2, ![1024, 4096]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  main_v18

def fn {F : FTy → Type} [FloatOps F] (main_arg0 : FVec F S4x4096x1024 .f32) (main_arg1 : FVec F S8 .f32) (main_arg2 : FVec F S4096x8 .f32) (main_arg3 : FVec F S1024x4096 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_v13 main_v16
-- ==== Kernel.lean ====
abbrev S4x4096x1024 : Shape := ⟨3, ![4, 4096, 1024]⟩
abbrev S8 : Shape := ⟨1, ![8]⟩
abbrev S4096x8 : Shape := ⟨2, ![4096, 8]⟩
abbrev S1024x4096 : Shape := ⟨2, ![1024, 4096]⟩
abbrev S4x4096x8 : Shape := ⟨3, ![4, 4096, 8]⟩
abbrev S1x1x8 : Shape := ⟨3, ![1, 1, 8]⟩
abbrev S16384x8 : Shape := ⟨2, ![16384, 8]⟩
abbrev S16384x1024 : Shape := ⟨2, ![16384, 1024]⟩
abbrev S256x8 : Shape := ⟨2, ![256, 8]⟩
abbrev S256x1024 : Shape := ⟨2, ![256, 1024]⟩
abbrev S256x4096 : Shape := ⟨2, ![256, 4096]⟩

abbrev nBuf : Space → Nat
  | .hbm => 16
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S8, .f32⟩
  | .hbm, ⟨2, _⟩ => ⟨S4096x8, .f32⟩
  | .hbm, ⟨3, _⟩ => ⟨S1024x4096, .f32⟩
  | .hbm, ⟨4, _⟩ => ⟨S4x4096x8, .f32⟩
  | .hbm, ⟨5, _⟩ => ⟨S4x4096x8, .f32⟩
  | .hbm, ⟨6, _⟩ => ⟨S8, .f32⟩
  | .hbm, ⟨7, _⟩ => ⟨S1x1x8, .f32⟩
  | .hbm, ⟨8, _⟩ => ⟨S4x4096x8, .f32⟩
  | .hbm, ⟨9, _⟩ => ⟨S4x4096x8, .f32⟩
  | .hbm, ⟨10, _⟩ => ⟨S16384x8, .f32⟩
  | .hbm, ⟨11, _⟩ => ⟨S16384x8, .bf16⟩
  | .hbm, ⟨12, _⟩ => ⟨S4096x8, .bf16⟩
  | .hbm, ⟨13, _⟩ => ⟨S1024x4096, .bf16⟩
  | .hbm, ⟨14, _⟩ => ⟨S16384x1024, .f32⟩
  | .hbm, ⟨15, _⟩ => ⟨S4x4096x1024, .f32⟩
  | .local _ .vmem, ⟨0, _⟩ => ⟨S256x8, .bf16⟩
  | .local _ .vmem, ⟨1, _⟩ => ⟨S256x8, .bf16⟩
  | .local _ .vmem, ⟨2, _⟩ => ⟨S4096x8, .bf16⟩
  | .local _ .vmem, ⟨3, _⟩ => ⟨S1024x4096, .bf16⟩
  | .local _ .vmem, ⟨4, _⟩ => ⟨S256x1024, .f32⟩
  | .local _ .vmem, ⟨5, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4x4096x1024_S4x4096x8_0_0_0 : S4x4096x1024.Slices ![0, 0, 0] S4x4096x8
  bcast_S8_S1x1x8_2 : S8.BroadcastsInDim S1x1x8 (![2] : Fin 1 → Fin S1x1x8.rank)
  bcast_S1x1x8_S4x4096x8_0_1_2 : S1x1x8.BroadcastsInDim S4x4096x8 (![0, 1, 2] : Fin 3 → Fin S4x4096x8.rank)
  shapeCasts_S4x4096x8_S16384x8 : S4x4096x8.ShapeCasts S16384x8
  bitsLt_bf16_f32 : FTy.bits .bf16 < FTy.bits .f32
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x1024_S256x1024_0_0 : ∀ a, (![0, 0] : Fin 2 → Nat) a + S256x1024.size a ≤ S256x1024.size a
  h_S256x1024 : 0 < S256x1024.numel
  shapeCasts_S16384x1024_S4x4096x1024 : S16384x1024.ShapeCasts S4x4096x1024
  dot_S256x8_S4096x8_S256x4096_1_1_0_0_n_n_wf : DotDims.WF S256x8 S4096x8 S256x4096 [1] [1] [0] [0] [] []
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8.size a ≤ S16384x8.size a
  hwx0_0 : ∀ i : grid0.Coords, EltTy.bits .bf16 = 32 ∨ (Rect.block (s := S16384x8) S256x8.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S4096x8.size a
  hwx0_1 : ∀ i : grid0.Coords, EltTy.bits .bf16 = 32 ∨ (Rect.block (s := S4096x8) S4096x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S16384x1024.size a
  hwx0_3 : ∀ i : grid0.Coords, EltTy.bits .f32 = 32 ∨ (Rect.block (s := S16384x1024) S256x1024.size (cc0_transform_3 i) (hinb0_3 i)).WholeWords (EltTy.packing .f32)

variable [Facts₀]

def dot_S256x8_S4096x8_S256x4096_1_1_0_0_n_n : DotDims S256x8 S4096x8 S256x4096 where
  lhsContracting := [1]
  rhsContracting := [1]
  lhsNonContracting := [0]
  rhsNonContracting := [0]
  lhsBatch := []
  rhsBatch := []
  wf := dot_S256x8_S4096x8_S256x4096_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v7) S256x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4096x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S8 : Shape := ⟨1, ![8]⟩
abbrev S4096x8 : Shape := ⟨2, ![4096, 8]⟩
abbrev S1024x4096 : Shape := ⟨2, ![1024, 4096]⟩
abbrev S4x4096x8 : Shape := ⟨3, ![4, 4096, 8]⟩
abbrev S1x1x8 : Shape := ⟨3, ![1, 1, 8]⟩
abbrev S4x4096x4096 : Shape := ⟨3, ![4, 4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8, .f32⟩
  | .hbm, ⟨2, _⟩ => ⟨S4096x8, .f32⟩
  | .hbm, ⟨3, _⟩ => ⟨S1024x4096, .f32⟩
  | .hbm, ⟨4, _⟩ => ⟨S4x4096x8, .f32⟩
  | .hbm, ⟨5, _⟩ => ⟨S4x4096x8, .f32⟩
  | .hbm, ⟨6, _⟩ => ⟨S8, .f32⟩
  | .hbm, ⟨7, _⟩ => ⟨S1x1x8, .f32⟩
  | .hbm, ⟨8, _⟩ => ⟨S4x4096x8, .f32⟩
  | .hbm, ⟨9, _⟩ => ⟨S4x4096x8, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  slices_S4x4096x1024_S4x4096x8_0_0_0 : S4x4096x1024.Slices ![0, 0, 0] S4x4096x8
  bcast_S8_S1x1x8_2 : S8.BroadcastsInDim S1x1x8 (![2] : Fin 1 → Fin S1x1x8.rank)
  bcast_S1x1x8_S4x4096x8_0_1_2 : S1x1x8.BroadcastsInDim S4x4096x8 (![0, 1, 2] : Fin 3 → Fin S4x4096x8.rank)
  bcast_S_S4x4096x4096 : S_.BroadcastsInDim S4x4096x4096 (![] : Fin 0 → Fin S4x4096x4096.rank)
  dot_S4x4096x8_S4096x8_S4x4096x4096_2_1_01_0_n_n_wf : DotDims.WF S4x4096x8 S4096x8 S4x4096x4096 [2] [1] [0, 1] [0] [] []
  dot_S4x4096x4096_S1024x4096_S4x4096x1024_2_1_01_0_n_n_wf : DotDims.WF S4x4096x4096 S1024x4096 S4x4096x1024 [2] [1] [0, 1] [0] [] []

variable [Facts₀]

def dot_S4x4096x8_S4096x8_S4x4096x4096_2_1_01_0_n_n : DotDims S4x4096x8 S4096x8 S4x4096x4096 where
  lhsContracting := [2]
  rhsContracting := [1]
  lhsNonContracting := [0, 1]
  rhsNonContracting := [0]
  lhsBatch := []
  rhsBatch := []
  wf := dot_S4x4096x8_S4096x8_S4x4096x4096_2_1_01_0_n_n_wf
def dot_S4x4096x4096_S1024x4096_S4x4096x1024_2_1_01_0_n_n : DotDims S4x4096x4096 S1024x4096 S4x4096x1024 where
  lhsContracting := [2]
  rhsContracting := [1]
  lhsNonContracting := [0, 1]
  rhsNonContracting := [0]
  lhsBatch := []
  rhsBatch := []
  wf := dot_S4x4096x4096_S1024x4096_S4x4096x1024_2_1_01_0_n_n_wf

class Facts : Prop extends Facts₀ where

variable [Facts]
-- ==== Proof.Spec.lean ====
/-
  The two-layer perceptron both programs compute, as ONE function of its operands, index by index, over the
  extended reals.

  A token's feature row `a r ·` (8 features) meets the first weight matrix `w1` (4096 × 8) in 4096 inner products;
  each is clipped below at zero (the rectifier), and the 4096 clipped values meet the second weight matrix
  `w2` (1024 × 4096) in 1024 inner products:

      out r e = ∑ f, max (∑ q, a r q · w1 f q) 0 · w2 e f.

  The kernel works on the tokens laid out as one axis of 16384 rows (and, inside a grid point, on 256 of them),
  the reference on the same tokens as a 4 × 4096 table; `rows` is the former reading, generic in the number of rows,
  and `table` the latter. Row `b · 4096 + s` of the flat layout is entry `(b, s)` of the table.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- The hidden unit `f` of a token whose eight features are `a`: the inner product with row `f` of the first
    weight matrix, clipped below at zero. -/
def hidden (a : Fin 8 → EReal) (w1 : (⟨2, ![4096, 8]⟩ : Shape).Idx → EReal) (f : Fin 4096) : EReal :=
  max (∑ q : Fin 8, a q * w1 (ix2 f q)) 0

/-- Output `e` of that token: the inner product of its 4096 hidden units with row `e` of the second weight matrix. -/
def output (a : Fin 8 → EReal) (w1 : (⟨2, ![4096, 8]⟩ : Shape).Idx → EReal)
    (w2 : (⟨2, ![1024, 4096]⟩ : Shape).Idx → EReal) (e : Fin 1024) : EReal :=
  ∑ f : Fin 4096, hidden a w1 f * w2 (ix2 e f)

/-- The perceptron over `R` tokens laid out as the rows of an `R × 8` matrix. -/
def rows (R : Nat) (a : (⟨2, ![R, 8]⟩ : Shape).Idx → EReal) (w1 : (⟨2, ![4096, 8]⟩ : Shape).Idx → EReal)
    (w2 : (⟨2, ![1024, 4096]⟩ : Shape).Idx → EReal) : (⟨2, ![R, 1024]⟩ : Shape).Idx → EReal :=
  fun j => output (fun q => a (ix2 (j 0) q)) w1 w2 (j 1)

/-- The perceptron over the tokens laid out as a `4 × 4096` table of feature rows. -/
def table (a : (⟨3, ![4, 4096, 8]⟩ : Shape).Idx → EReal) (w1 : (⟨2, ![4096, 8]⟩ : Shape).Idx → EReal)
    (w2 : (⟨2, ![1024, 4096]⟩ : Shape).Idx → EReal) : (⟨3, ![4, 4096, 1024]⟩ : Shape).Idx → EReal :=
  fun i => output (fun q => a (ix3 (i 0) (i 1) q)) w1 w2 (i 2)

/-- A row of the flat layout read at its coordinates. -/
theorem rows_apply (R : Nat) (a : (⟨2, ![R, 8]⟩ : Shape).Idx → EReal) (w1 : (⟨2, ![4096, 8]⟩ : Shape).Idx → EReal)
    (w2 : (⟨2, ![1024, 4096]⟩ : Shape).Idx → EReal) (r : Fin R) (e : Fin 1024) :
    rows R a w1 w2 (ix2 r e) = output (fun q => a (ix2 r q)) w1 w2 e := rfl

/-- A block of 256 consecutive rows of the flat layout computes those rows of the whole: if row `p` of the block `x`
    is row `T · 256 + p` of `a`, the perceptron over the block at `(p, e)` is the perceptron over `a` at
    `(T · 256 + p, e)` (a token's outputs depend on that token's features only). -/
theorem rows_block (T : Nat) (hT : T < 64) (a : (⟨2, ![16384, 8]⟩ : Shape).Idx → EReal)
    (x : (⟨2, ![256, 8]⟩ : Shape).Idx → EReal) (w1 : (⟨2, ![4096, 8]⟩ : Shape).Idx → EReal)
    (w2 : (⟨2, ![1024, 4096]⟩ : Shape).Idx → EReal) (p : Fin 256) (e : Fin 1024)
    (hx : ∀ q : Fin 8, x (ix2 p q) = a (ix2 (⟨T * 256 + p.val, by omega⟩ : Fin 16384) q)) :
    rows 256 x w1 w2 (ix2 p e) = rows 16384 a w1 w2 (ix2 (⟨T * 256 + p.val, by omega⟩ : Fin 16384) e) := by
  rw [rows_apply, rows_apply, funext hx]

/-- The flat layout's rows are the table's entries: if row `r` of `a` holds the features of entry `(b, s)` of `t`,
    the two readings agree there. -/
theorem rows_eq_table (a : (⟨2, ![16384, 8]⟩ : Shape).Idx → EReal) (t : (⟨3, ![4, 4096, 8]⟩ : Shape).Idx → EReal)
    (w1 : (⟨2, ![4096, 8]⟩ : Shape).Idx → EReal) (w2 : (⟨2, ![1024, 4096]⟩ : Shape).Idx → EReal)
    (r : Fin 16384) (b : Fin 4) (s : Fin 4096) (e : Fin 1024)
    (h : ∀ q : Fin 8, a (ix2 r q) = t (ix3 b s q)) :
    rows 16384 a w1 w2 (ix2 r e) = table t w1 w2 (ix3 b s e) := by
  show output (fun q => a (ix2 r q)) w1 w2 e = output (fun q => t (ix3 b s q)) w1 w2 e
  rw [funext h]

end Cert.Mlp

end
-- ==== Proof.Payload.lean ====
/-
  What one grid point of the kernel computes from the blocks it loads, at the extended reals: the two-layer
  perceptron over the point's 256 tokens.

  The body multiplies the 256 × 8 block of features by the transposed first weight matrix into a zero
  accumulator (an inner product over the 8 features), clips at zero, changes format (the identity here), and
  multiplies by the transposed second weight matrix into a zero accumulator (an inner product over the 4096
  hidden units). Each matrix product contracts the LAST axis of both operands, so entry `(p, f)` of the first is
  `∑ q, x (p, q) · w1 (f, q)` and entry `(p, e)` of the second `∑ f, h (p, f) · w2 (e, f)`.
-/
import proofs.«128111_j65481071402935_1_alg».proof.Proof.Gen.KernelIdeal.Skeleton
import proofs.«128111_j65481071402935_1_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The first product's operand indices, axis by axis -/

theorem first_lhs_0 (i : S256x4096.Idx) (q : dot_S256x8_S4096x8_S256x4096_1_1_0_0_n_n.contr.Idx) :
    (dot_S256x8_S4096x8_S256x4096_1_1_0_0_n_n.lhsIdx i q 0).val = (i 0).val := by
  unfold DotDims.lhsIdx
  rw [dif_neg (show ¬(0 : Fin S256x8.rank) ∈ dot_S256x8_S4096x8_S256x4096_1_1_0_0_n_n.lhsBatch by decide), dif_pos (show (0 : Fin S256x8.rank) ∈ dot_S256x8_S4096x8_S256x4096_1_1_0_0_n_n.lhsNonContracting by decide)]
  rfl
theorem first_lhs_1 (i : S256x4096.Idx) (q : dot_S256x8_S4096x8_S256x4096_1_1_0_0_n_n.contr.Idx) :
    (dot_S256x8_S4096x8_S256x4096_1_1_0_0_n_n.lhsIdx i q 1).val = (q ⟨0, by decide⟩).val :=
  dot_S256x8_S4096x8_S256x4096_1_1_0_0_n_n.lhsIdx_val_of_single rfl i q
theorem first_rhs_0 (i : S256x4096.Idx) (q : dot_S256x8_S4096x8_S256x4096_1_1_0_0_n_n.contr.Idx) :
    (dot_S256x8_S4096x8_S256x4096_1_1_0_0_n_n.rhsIdx i q 0).val = (i 1).val := by
  unfold DotDims.rhsIdx
  rw [dif_neg (show ¬(0 : Fin S4096x8.rank) ∈ dot_S256x8_S4096x8_S256x4096_1_1_0_0_n_n.rhsBatch by decide), dif_pos (show (0 : Fin S4096x8.rank) ∈ dot_S256x8_S4096x8_S256x4096_1_1_0_0_n_n.rhsNonContracting by decide)]
  rfl
theorem first_rhs_1 (i : S256x4096.Idx) (q : dot_S256x8_S4096x8_S256x4096_1_1_0_0_n_n.contr.Idx) :
    (dot_S256x8_S4096x8_S256x4096_1_1_0_0_n_n.rhsIdx i q 1).val = (q ⟨0, by decide⟩).val :=
  dot_S256x8_S4096x8_S256x4096_1_1_0_0_n_n.rhsIdx_val_of_single rfl i q

/-- Entry `(p, f)` of the first product into the zero accumulator: the inner product of the token's 8 features with
    row `f` of the first weight matrix. -/
theorem first_apply (x : FVec Ideal S256x8 .bf16) (w : FVec Ideal S4096x8 .bf16) (p : Fin 256) (f : Fin 4096) :
    matmul dot_S256x8_S4096x8_S256x4096_1_1_0_0_n_n none x w (constant (F := Ideal) S256x4096 .f32 0x00000000#32) (ix2 p f)
      = ∑ q : Fin 8, x (ix2 p q) * w (ix2 f q) := by
  simp only [matmul]
  rw [Ideal.matmul_constant_zero_apply, ← Equiv.sum_comp (contrEquiv1 dot_S256x8_S4096x8_S256x4096_1_1_0_0_n_n 8 rfl rfl).symm]
  refine Finset.sum_congr rfl fun k _ => ?_
  have hk := contrEquiv1_symm_val dot_S256x8_S4096x8_S256x4096_1_1_0_0_n_n 8 rfl rfl k
  have el : dot_S256x8_S4096x8_S256x4096_1_1_0_0_n_n.lhsIdx (ix2 p f) ((contrEquiv1 dot_S256x8_S4096x8_S256x4096_1_1_0_0_n_n 8 rfl rfl).symm k) = ix2 p k := funext fun a => Fin.ext (by
    match a with
    | ⟨0, _⟩ => exact first_lhs_0 _ _
    | ⟨1, _⟩ => exact (first_lhs_1 _ _).trans hk)
  have er : dot_S256x8_S4096x8_S256x4096_1_1_0_0_n_n.rhsIdx (ix2 p f) ((contrEquiv1 dot_S256x8_S4096x8_S256x4096_1_1_0_0_n_n 8 rfl rfl).symm k) = ix2 f k := funext fun a => Fin.ext (by
    match a with
    | ⟨0, _⟩ => exact first_rhs_0 _ _
    | ⟨1, _⟩ => exact (first_rhs_1 _ _).trans hk)
  rw [el, er]

/-! ## The second product's operand indices, axis by axis -/

theorem second_lhs_0 (i : S256x1024.Idx) (q : dot_S256x4096_S1024x4096_S256x1024_1_1_0_0_n_n.contr.Idx) :
    (dot_S256x4096_S1024x4096_S256x1024_1_1_0_0_n_n.lhsIdx i q 0).val = (i 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
theorem second_lhs_1 (i : S256x1024.Idx) (q : dot_S256x4096_S1024x4096_S256x1024_1_1_0_0_n_n.contr.Idx) :
    (dot_S256x4096_S1024x4096_S256x1024_1_1_0_0_n_n.lhsIdx i q 1).val = (q ⟨0, by decide⟩).val :=
  dot_S256x4096_S1024x4096_S256x1024_1_1_0_0_n_n.lhsIdx_val_of_single rfl i q
theorem second_rhs_0 (i : S256x1024.Idx) (q : dot_S256x4096_S1024x4096_S256x1024_1_1_0_0_n_n.contr.Idx) :
    (dot_S256x4096_S1024x4096_S256x1024_1_1_0_0_n_n.rhsIdx i q 0).val = (i 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
theorem second_rhs_1 (i : S256x1024.Idx) (q : dot_S256x4096_S1024x4096_S256x1024_1_1_0_0_n_n.contr.Idx) :
    (dot_S256x4096_S1024x4096_S256x1024_1_1_0_0_n_n.rhsIdx i q 1).val = (q ⟨0, by decide⟩).val :=
  dot_S256x4096_S1024x4096_S256x1024_1_1_0_0_n_n.rhsIdx_val_of_single rfl i q

/-- Entry `(p, e)` of the second product into the zero accumulator: the inner product of the token's 4096 hidden
    units with row `e` of the second weight matrix. -/
theorem second_apply (h : FVec Ideal S256x4096 .bf16) (w : FVec Ideal S1024x4096 .bf16) (p : Fin 256) (e : Fin 1024) :
    matmul dot_S256x4096_S1024x4096_S256x1024_1_1_0_0_n_n none h w (constant (F := Ideal) S256x1024 .f32 0x00000000#32) (ix2 p e)
      = ∑ f : Fin 4096, h (ix2 p f) * w (ix2 e f) := by
  simp only [matmul]
  rw [Ideal.matmul_constant_zero_apply, ← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p e) ((contrEquiv1 dot_S256x4096_S1024x4096_S256x1024_1_1_0_0_n_n 4096 rfl rfl).symm k) = ix2 p k := funext fun a => Fin.ext (by
    match a with
    | ⟨0, _⟩ => exact second_lhs_0 _ _
    | ⟨1, _⟩ => exact (second_lhs_1 _ _).trans hk)
  have er : dot_S256x4096_S1024x4096_S256x1024_1_1_0_0_n_n.rhsIdx (ix2 p e) ((contrEquiv1 dot_S256x4096_S1024x4096_S256x1024_1_1_0_0_n_n 4096 rfl rfl).symm k) = ix2 e k := funext fun a => Fin.ext (by
    match a with
    | ⟨0, _⟩ => exact second_rhs_0 _ _
    | ⟨1, _⟩ => exact (second_rhs_1 _ _).trans hk)
  rw [el, er]

/-! ## The body's stored value -/

/-- What the body stores, from the three blocks it loads, is the perceptron over the point's 256 tokens. -/
theorem stored_eq (x : Vec Ideal S256x8 .bf16) (w1 : Vec Ideal S4096x8 .bf16) (w2 : Vec Ideal S1024x4096 .bf16) :
    k0_pay1 (F := Ideal) x w1 w2 = Cert.Mlp.rows 256 x w1 w2 := by
  funext j
  obtain ⟨p, e, rfl⟩ : ∃ (p : Fin 256) (e : Fin 1024), j = ix2 p e := ⟨j 0, j 1, eq_ix2 j⟩
  rw [Cert.Mlp.rows_apply]
  unfold k0_pay1
  simp only [shapeCast_self]
  rw [second_apply]
  unfold Cert.Mlp.output
  refine Finset.sum_congr rfl fun f _ => ?_
  show max (matmul dot_S256x8_S4096x8_S256x4096_1_1_0_0_n_n none x w1 (constant (F := Ideal) S256x4096 .f32 0x00000000#32) (ix2 p f)) (Ideal.ofBits .f32 0x00000000#32) * w2 (ix2 e f) = _
  rw [first_apply, Ideal.ofBits_zero_f32]
  rfl

end Cert.KernelIdeal.Body

end
-- ==== Proof.KernelValue.lean ====
/-
  The kernel's program as a whole, at the extended reals: its result array is the two-layer perceptron of the
  tokens' features, index by index.

  Before the kernel the host computes the features (the cosine of the first 8 of each token's 1024 inputs times
  the cosine of the 8 angles), lays the 4 × 4096 tokens out as 16384 rows and changes the format of the features
  and of both weight matrices (the identity here). Grid point `t` of 64 loads rows `256 t … 256 t + 255` of the
  features and both weight matrices whole, and writes rows `256 t … 256 t + 255` of the result; those blocks tile
  the 16384 × 1024 result, so after the last point it is the perceptron over all 16384 rows. After the kernel the
  host lays the rows out as the 4 × 4096 table again: row `b · 4096 + s` becomes entry `(b, s)`.
-/
import proofs.«128111_j65481071402935_1_alg».proof.Proof.Gen.KernelIdeal.Frame
import proofs.«128111_j65481071402935_1_alg».proof.Proof.Payload
import proofs.«128111_j65481071402935_1_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the kernel reads, and the blocks a point loads, at their literal types -/

/-- The features as the kernel finds them: 16384 rows of 8. -/
abbrev featArr (c : Dev nD) : Vec Ideal S16384x8 .bf16 := V m c main_v7
/-- The first weight matrix as the kernel finds it. -/
abbrev w1Arr (c : Dev nD) : Vec Ideal S4096x8 .bf16 := V m c main_v8
/-- The second weight matrix as the kernel finds it. -/
abbrev w2Arr (c : Dev nD) : Vec Ideal S1024x4096 .bf16 := V m c main_v9
/-- The 256 rows of features point `t` loads. -/
abbrev featBlk (c : Dev nD) (t : Fin cfg0.N) : Vec Ideal S256x8 .bf16 := iblk m c 0 t
/-- The first weight matrix as point `t` loads it. -/
abbrev w1Blk (c : Dev nD) (t : Fin cfg0.N) : Vec Ideal S4096x8 .bf16 := iblk m c 1 t
/-- The second weight matrix as point `t` loads it. -/
abbrev w2Blk (c : Dev nD) (t : Fin cfg0.N) : Vec Ideal S1024x4096 .bf16 := iblk m c 2 t

theorem zeros : (![0, 0] : Fin 2 → Nat) = fun _ => 0 := funext fun a => by fin_cases a <;> rfl

/-- The block indices, decided over the 64 points: the features' and the result's blocks are the `t`-th along the rows,
    both weight matrices' the one whole block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := lt_of_lt_of_eq t.isLt N_0

/-- Row `p` of the features point `t` loads is row `256 t + p` of the features. -/
theorem featBlk_apply (c : Dev nD) (t : Fin cfg0.N) (p : Fin 256) (q : Fin 8) :
    featBlk m c t (ix2 p q) = featArr m c (ix2 (⟨t.val * 256 + p.val, by have := point_lt t; omega⟩ : Fin 16384) q) := by
  obtain ⟨e0, e1, e2, e3, e4, e5, e6, e7⟩ := block_index t
  show V m c main_v7 (((cfg0.win 0).blk t).view.emb (ix2 p q)) = V m c main_v7 (ix2 (⟨t.val * 256 + p.val, _⟩ : Fin 16384) q)
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 8 + 1 * q.val = q.val; omega

/-- Every point loads the first weight matrix whole. -/
theorem w1Blk_eq (c : Dev nD) (t : Fin cfg0.N) : w1Blk m c t = w1Arr m c := by
  obtain ⟨e0, e1, e2, e3, e4, e5, e6, e7⟩ := block_index t
  funext y
  show V m c main_v8 (((cfg0.win 1).blk t).view.emb y) = V m c main_v8 y
  refine congrArg _ (funext fun a => Fin.ext ?_)
  match a with
  | ⟨0, _⟩ => show win0_1.index t (0 : Fin 2) * 4096 + 1 * (y 0).val = (y 0).val; omega
  | ⟨1, _⟩ => show win0_1.index t (1 : Fin 2) * 8 + 1 * (y 1).val = (y 1).val; omega

/-- Every point loads the second weight matrix whole. -/
theorem w2Blk_eq (c : Dev nD) (t : Fin cfg0.N) : w2Blk m c t = w2Arr m c := by
  obtain ⟨e0, e1, e2, e3, e4, e5, e6, e7⟩ := block_index t
  funext y
  show V m c main_v9 (((cfg0.win 2).blk t).view.emb y) = V m c main_v9 y
  refine congrArg _ (funext fun a => Fin.ext ?_)
  match a with
  | ⟨0, _⟩ => show win0_2.index t (0 : Fin 2) * 1024 + 1 * (y 0).val = (y 0).val; omega
  | ⟨1, _⟩ => show win0_2.index t (1 : Fin 2) * 4096 + 1 * (y 1).val = (y 1).val; omega

/-! ## What a point writes back, and the result array after the last point -/

/-- What point `t` writes back is block `t` of the perceptron over all 16384 rows. -/
theorem flushed_eq (c : Dev nD) (t : Fin cfg0.N) :
    (dats m 0 c).flushed 3 t
      = ((cfg0.win 3).blk t).view.read (Elt Ideal) (Cert.Mlp.rows 16384 (featArr m c) (w1Arr m c) (w2Arr m c)) := by
  show (cfg0.win 3).cut (grid0.coords t) ((dats m 0 c).after 3 t) = _
  rw [after0_3]
  unfold out0_3
  rw [View.canon_unit_zero zeros]
  simp only [View.ld_unit_zero (S := S256x8) zeros, View.ld_unit_zero (S := S4096x8) zeros, View.ld_unit_zero (S := S1024x4096) zeros]
  rw [Body.stored_eq]
  obtain ⟨e0, e1, e2, e3, e4, e5, e6, e7⟩ := block_index t
  funext (j : S256x1024.Idx)
  obtain ⟨p, e, rfl⟩ : ∃ (p : Fin 256) (e : Fin 1024), j = ix2 p e := ⟨j 0, j 1, eq_ix2 j⟩
  show Cert.Mlp.rows 256 (featBlk m c t) (w1Blk m c t) (w2Blk m c t) (ix2 p e)
    = Cert.Mlp.rows 16384 (featArr m c) (w1Arr m c) (w2Arr m c) (((cfg0.win 3).blk t).view.emb (ix2 p e))
  rw [w1Blk_eq, w2Blk_eq]
  refine (Cert.Mlp.rows_block t.val (point_lt t) (featArr m c) (featBlk m c t) (w1Arr m c) (w2Arr m c) p e
    (fun q => featBlk_apply m c t p q)).trans ?_
  refine congrArg _ (funext fun a => Fin.ext ?_)
  match a with
  | ⟨0, _⟩ => show t.val * 256 + p.val = win0_3.index t (0 : Fin 2) * 256 + 1 * p.val; omega
  | ⟨1, _⟩ => show e.val = win0_3.index t (1 : Fin 2) * 1024 + 1 * e.val; omega

/-- An index of the result is in point `t`'s block iff each coordinate is in the block's range on its axis. -/
theorem mem_blk (t : Fin cfg0.N) (i : S16384x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v10).slice (win0_3.rect t)).set ↔ _
  rw [View.set_slice_whole, Rect.mem_set_unit]
  exact Iff.rfl

/-- Every row of the result is written by some point: row `r` by point `r / 256`. -/
theorem covered (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hlt : (i 0).val / 256 < cfg0.N := lt_of_lt_of_eq (by omega : (i 0).val / 256 < 64) N_0.symm
  obtain ⟨e0, e1, e2, e3, e4, e5, e6, e7⟩ := block_index ⟨(i 0).val / 256, hlt⟩
  refine ⟨⟨(i 0).val / 256, hlt⟩, flush0_3 _, ?_⟩
  rw [mem_blk]
  intro a
  match a with
  | ⟨0, _⟩ =>
    show win0_3.index ⟨(i 0).val / 256, hlt⟩ (0 : Fin 2) * 256 ≤ (i 0).val ∧ (i 0).val < win0_3.index ⟨(i 0).val / 256, hlt⟩ (0 : Fin 2) * 256 + 256
    have : (⟨(i 0).val / 256, hlt⟩ : Fin cfg0.N).val = (i 0).val / 256 := rfl
    omega
  | ⟨1, _⟩ =>
    show win0_3.index ⟨(i 0).val / 256, hlt⟩ (1 : Fin 2) * 1024 ≤ (i 1).val ∧ (i 1).val < win0_3.index ⟨(i 0).val / 256, hlt⟩ (1 : Fin 2) * 1024 + 1024
    omega

/-- The result array after the last point: the perceptron over all 16384 rows. -/
theorem final (c : Dev nD) :
    (dats m 0 c).arrAt 3 cfg0.N = Cert.Mlp.rows 16384 (featArr m c) (w1Arr m c) (w2Arr m c) :=
  (dats m 0 c).arrAt_eq_of_cover 3 _ (fun t _ => flushed_eq m c t) covered

/-! ## The host's lines before the kernel -/

/-- The tokens' features: the cosine of the first 8 of each token's 1024 inputs times the cosine of the 8 angles. -/
def features (x : (⟨S4x4096x1024, .f32⟩ : BufTy).Contents (Elt Ideal)) (θ : (⟨S8, .f32⟩ : BufTy).Contents (Elt Ideal)) :
    (⟨S4x4096x8, .f32⟩ : BufTy).Contents (Elt Ideal) :=
  mulf (F := Ideal) (φ := .f32) (Host.cos (F := Ideal) (φ := .f32) (extractStridedSlice S4x4096x8 ![0, 0, 0] x slices_S4x4096x1024_S4x4096x8_0_0_0))
    (broadcastInDim S4x4096x8 ![0, 1, 2] bcast_S1x1x8_S4x4096x8_0_1_2 (broadcastInDim S1x1x8 ![2] bcast_S8_S1x1x8_2 (Host.cos (F := Ideal) (φ := .f32) θ)))

/-- The kernel finds the features laid out as 16384 rows (the change of format is the identity). -/
theorem featArr_eq (c : Dev nD) :
    featArr m c = shapeCast S16384x8 (features (m ((c : Thread nD τ).loc main_arg0)) (m ((c : Thread nD τ).loc main_arg1))) shapeCasts_S4x4096x8_S16384x8 := by
  show StableHlo.after hostOps0 (fun b => m (c, b)) (Proc.devRef .tc main_v7) = _
  after_results <;> rfl

/-- It finds the first weight matrix as launched (the change of format is the identity). -/
theorem w1Arr_eq (c : Dev nD) : w1Arr m c = m ((c : Thread nD τ).loc main_arg2) := by
  show StableHlo.after hostOps0 (fun b => m (c, b)) (Proc.devRef .tc main_v8) = _
  after_results <;> rfl

/-- It finds the second weight matrix as launched (the change of format is the identity). -/
theorem w2Arr_eq (c : Dev nD) : w2Arr m c = m ((c : Thread nD τ).loc main_arg3) := by
  show StableHlo.after hostOps0 (fun b => m (c, b)) (Proc.devRef .tc main_v9) = _
  after_results <;> rfl

/-- Row `b · 4096 + s` of the features as the kernel finds them is entry `(b, s)` of the table of features. -/
theorem featArr_apply (c : Dev nD) (b : Fin 4) (s : Fin 4096) (q : Fin 8) :
    featArr m c (ix2 (⟨b.val * 4096 + s.val, by omega⟩ : Fin 16384) q)
      = features (m ((c : Thread nD τ).loc main_arg0)) (m ((c : Thread nD τ).loc main_arg1)) (ix3 b s q) := by
  rw [featArr_eq]
  refine shapeCast_apply _ _ _ (ix3 b s q) ?_
  rw [Shape.rowMajor_val_three, Shape.rowMajor_val_two]
  rfl

/-! ## The host's line after the kernel, and the run -/

/-- The program's result: the result array's rows laid out as the 4 × 4096 table. -/
theorem result_eq (c : Dev nD) :
    Pipeline.afterTail₀ cfgs (dats m) 0 (V0 m) [hostOps1] c main_v11
      = Cert.Mlp.table (features (m ((c : Thread nD τ).loc main_arg0)) (m ((c : Thread nD τ).loc main_arg1))) (m ((c : Thread nD τ).loc main_arg2)) (m ((c : Thread nD τ).loc main_arg3)) := by
  unfold Pipeline.afterTail₀
  show StableHlo.after hostOps1 _ (Proc.devRef .tc main_v11) = _
  after_results
  rw [Pipeline.withArrays_arr spec0 launch0.win.arr_inj c _ _ 3, final, w1Arr_eq, w2Arr_eq]
  funext i
  obtain ⟨b, s, e, rfl⟩ : ∃ (b : Fin 4) (s : Fin 4096) (e : Fin 1024), i = ix3 b s e := ⟨i 0, i 1, i 2, eq_ix3 i⟩
  refine (shapeCast_apply _ _ (ix3 b s e) (ix2 (⟨b.val * 4096 + s.val, by omega⟩ : Fin 16384) e) ?_).trans ?_
  · rw [Shape.rowMajor_val_three, Shape.rowMajor_val_two]
    rfl
  · exact Cert.Mlp.rows_eq_table _ _ _ _ _ b s e (fun q => featArr_apply m c b s q)

/-- Every weakly fair execution of the kernel's program terminates with its result at the perceptron of the features
    and the weight matrices as launched, and the arguments unchanged. -/
theorem run : θ_run defs (onTc (τ := τ) (main (F := Ideal))) ⟨m, fun _ => 0, ρ⟩ fun r => ∀ c : Dev nD,
      r.2.mem ((c : Thread nD τ).loc main_v11)
        = Cert.Mlp.table (features (m ((c : Thread nD τ).loc main_arg0)) (m ((c : Thread nD τ).loc main_arg1))) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.RefValue.lean ====
/-
  The reference's program, at the extended reals: its result is the two-layer perceptron over the 4 × 4096 table
  of the tokens' features.

  The reference computes the same features (the cosine of the first 8 of each token's 1024 inputs times the cosine
  of the 8 angles) and contracts them, token by token, with the first weight matrix over the 8 features, clips at
  zero, and contracts the 4096 clipped values with the second weight matrix: entry `(b, s, e)` is
  `∑ f, max (∑ q, features (b, s, q) · w1 (f, q)) 0 · w2 (e, f)`.
-/
import proofs.«128111_j65481071402935_1_alg».proof.Proof.Gen.ReferenceIdeal.Read
import proofs.«128111_j65481071402935_1_alg».proof.Proof.Spec
import Idealize.ShloMosaic.Lib.ValueIdx
import Idealize.ShloMosaic.PureOps.Ideal.Laws

noncomputable section

namespace Cert.ReferenceIdeal.Whole

open Cert.ReferenceIdeal Cert.ReferenceIdeal.Gen Cert.ReferenceIdeal.Read Idealize.ShloMosaic Idealize.ShloMosaic.ValueIdx

/-- The reference's result, as a function of its four arguments, is the perceptron over the table of features (its
    fifth value: the product of the two cosines). -/
theorem result_eq (x : (⟨S4x4096x1024, .f32⟩ : BufTy).Contents (Elt Ideal)) (θ : (⟨S8, .f32⟩ : BufTy).Contents (Elt Ideal))
    (w1 : (⟨S4096x8, .f32⟩ : BufTy).Contents (Elt Ideal)) (w2 : (⟨S1024x4096, .f32⟩ : BufTy).Contents (Elt Ideal)) :
    val_main_v8 (F := Ideal) x θ w1 w2 = Cert.Mlp.table (val_main_v5 (F := Ideal) x θ) w1 w2 := by
  funext i
  obtain ⟨b, s, e, rfl⟩ : ∃ (b : Fin 4) (s : Fin 4096) (e : Fin 1024), i = ix3 b s e := ⟨i 0, i 1, i 2, eq_ix3 i⟩
  rw [val_main_v8_apply]
  show _ = Cert.Mlp.output (fun q => val_main_v5 (F := Ideal) x θ (ix3 b s q)) w1 w2 e
  unfold Cert.Mlp.output
  refine Finset.sum_congr rfl fun f _ => ?_
  have hl : lidx_main_v8 (ix3 b s e) f = ix3 b s f :=
    funext fun a => Fin.ext (by match a with | ⟨0, _⟩ => rfl | ⟨1, _⟩ => rfl | ⟨2, _⟩ => rfl)
  have hr : ridx_main_v8 (ix3 b s e) f = ix2 e f :=
    funext fun a => Fin.ext (by match a with | ⟨0, _⟩ => rfl | ⟨1, _⟩ => rfl)
  have hl' : ∀ q : Fin 8, lidx_main_v6 (ix3 b s f) q = ix3 b s q := fun q =>
    funext fun a => Fin.ext (by match a with | ⟨0, _⟩ => rfl | ⟨1, _⟩ => rfl | ⟨2, _⟩ => rfl)
  have hr' : ∀ q : Fin 8, ridx_main_v6 (ix3 b s f) q = ix2 f q := fun q =>
    funext fun a => Fin.ext (by match a with | ⟨0, _⟩ => rfl | ⟨1, _⟩ => rfl)
  rw [hl, hr, val_main_v7_apply, val_main_v6_apply, val_main_call0_v0_apply, val_main_call0_cst_apply]
  unfold Cert.Mlp.hidden
  simp only [hl', hr', Ideal.maximumf_def, Ideal.ofBits_def, Ideal.ofBits_zero_f32]

end Cert.ReferenceIdeal.Whole

end
-- ==== Proof.lean ====
/-
  The kernel computes, for each of 4 × 4096 tokens, a two-layer perceptron of 8 features of the token:

      out (b, s, e) = ∑ f, max (∑ q, features (b, s, q) · w1 (f, q)) 0 · w2 (e, f),
      features (b, s, q) = cos x (b, s, q) · cos θ q      (the first 8 of the token's 1024 inputs),

  with the tokens laid out as 16384 rows, 256 rows to a grid point, both weight matrices held whole; the reference
  computes the same sums as two contractions over the 4 × 4096 table of tokens. At the extended reals a change of
  float format is the identity, a matrix product into a zero accumulator is the plain sum of products, and the
  rectifier is `max · 0` on both sides; so both programs end at ONE function of the arguments (`Cert.Mlp.table` of
  the features and the two weight matrices), with no law of arithmetic needed beyond reading each sum at its index:
  row `b · 4096 + s` of the kernel's flat layout is entry `(b, s)` of the reference's table.

  Proof/Spec.lean states that function; Proof/Payload.lean reads one grid point's stored block as it;
  Proof/KernelValue.lean reads the kernel's whole program (the host lines before, the 64 blocks tiling the result, the
  host line after); Proof/RefValue.lean reads the reference's result term. The three frames are the generated ones
  (the reference's is its run with the result dropped); the kernel's idealization rewrote nothing.
-/
import proofs.«128111_j65481071402935_1_alg».proof.Defs
import proofs.«128111_j65481071402935_1_alg».proof.Proof.Gen.Kernel
import proofs.«128111_j65481071402935_1_alg».proof.Proof.Gen.Kernel.Skeleton
import proofs.«128111_j65481071402935_1_alg».proof.Proof.Gen.Kernel.Launch
import proofs.«128111_j65481071402935_1_alg».proof.Proof.Gen.Kernel.Points
import proofs.«128111_j65481071402935_1_alg».proof.Proof.Gen.Kernel.Frame
import proofs.«128111_j65481071402935_1_alg».proof.Proof.Gen.KernelIdeal
import proofs.«128111_j65481071402935_1_alg».proof.Proof.Gen.KernelIdeal.Skeleton
import proofs.«128111_j65481071402935_1_alg».proof.Proof.Gen.KernelIdeal.Launch
import proofs.«128111_j65481071402935_1_alg».proof.Proof.Gen.KernelIdeal.Points
import proofs.«128111_j65481071402935_1_alg».proof.Proof.Gen.KernelIdeal.Frame
import proofs.«128111_j65481071402935_1_alg».proof.Proof.Gen.ReferenceIdeal
import proofs.«128111_j65481071402935_1_alg».proof.Proof.Gen.ReferenceIdeal.Run
import proofs.«128111_j65481071402935_1_alg».proof.Proof.Gen.ReferenceIdeal.Read
import proofs.«128111_j65481071402935_1_alg».proof.Proof.Gen.Pre_finite_inputs
import proofs.«128111_j65481071402935_1_alg».proof.Proof.Spec
import proofs.«128111_j65481071402935_1_alg».proof.Proof.KernelValue
import proofs.«128111_j65481071402935_1_alg».proof.Proof.RefValue
import Idealize.ShloMosaic.Adequacy
import Idealize.ShloMosaic.Init

noncomputable section

namespace Cert.Proof

open Idealize.ShloMosaic Idealize.SL.Sem

/-- Both programs compute the features by the same host lines: the kernel's term and the reference's fifth value
    are one function of the inputs and the angles. -/
theorem features_eq (x : (⟨Cert.KernelIdeal.S4x4096x1024, .f32⟩ : BufTy).Contents (Elt Ideal))
    (θ : (⟨Cert.KernelIdeal.S8, .f32⟩ : BufTy).Contents (Elt Ideal)) :
    Cert.KernelIdeal.Whole.features x θ = Cert.ReferenceIdeal.Read.val_main_v5 (F := Ideal) x θ := rfl

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end at the perceptron of the features and the two weight
    matrices: the kernel's by its whole-program reading, the reference's by its result term read at an index. -/
theorem algebraic : Cert.algebraic_KernelIdeal_ReferenceIdeal := by
  intro m ρ m' ρ' _ hagree
  refine ⟨fun c => Cert.Mlp.table (Cert.KernelIdeal.Whole.features (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.Whole.result_eq,
    (hagree c).1, (hagree c).2.1, (hagree c).2.2.1, (hagree c).2.2.2, ← features_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
